-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 46
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S1x800000, .i32⟩
  | .hbm, ⟨28, _⟩ => ⟨S800000, .i32⟩
  | .hbm, ⟨29, _⟩ => ⟨S1x800000, .i32⟩
  | .hbm, ⟨30, _⟩ => ⟨S800000, .i32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S1x128, .f32⟩
  | .hbm, ⟨45, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KBody.lean ====
/-
  What one grid point of the fused dense kernel stores, entry by entry, on the extended reals.

  A grid point holds a block of 2000 rows of the neighbour sums and of the node features, both weight matrices and the
  bias row. Rounding to bfloat16 is the identity on the extended reals and a matrix product into a zero accumulator is
  the plain sum over the contracted axis, so the stored block at row `p`, channel `q` is

      (Σ_k aggBlock[p,k] · w[k,q]  +  Σ_k xBlock[p,k] · wr[k,q])  +  b[0,q].

  Both launches of the kernel store this; the second only reshapes its second operand to its own shape first.
-/
import proofs.«133569_j22428319219806_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.TcCoe Idealize.ShloMosaic.ValueIdx
open Cert.KernelIdeal Cert.KernelIdeal.Gen

/-- The block product's dimension numbers: rows × contraction times contraction × columns. -/
abbrev dd := dot_S2000x128_S128x128_S2000x128_1_0_0_1_n_n

theorem lhs_dd_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dd_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dd_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dd_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, read at row `p` and channel `q`: the sum over the 128 contracted
    positions of the left block's row entry times the right matrix's column entry. -/
theorem matmul_at {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dd_0 _ _
    | ⟨1, _⟩ => exact (lhs_dd_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dd_0 _ _).trans hk
    | ⟨1, _⟩ => exact rhs_dd_1 _ _)
  rw [el, er]

/-- The bias row spread over the block's 2000 rows, read at row `p`, channel `q`: the row's entry at `q`. -/
theorem bias_at (b : FVec Ideal S1x128 .f32) (p : Fin 2000) (q : Fin 128) :
    broadcastTo S2000x128 b broadcasts_S1x128_S2000x128 (ix2 p q) = b (ix2 (0 : Fin 1) q) := by
  refine broadcastTo_apply b broadcasts_S1x128_S2000x128 (ix2 p q) (ix2 (0 : Fin 1) q) (fun a => ?_)
  match a with
  | ⟨0, _⟩ => show (0 : Nat) = if (1 : Nat) = 1 then 0 else _; rw [if_pos rfl]
  | ⟨1, _⟩ => show q.val = if (128 : Nat) = 1 then 0 else q.val; rw [if_neg (by decide)]

/-- What the first launch's grid point stores at row `p`, channel `q`. -/
theorem pay0_at (a x : Vec Ideal S2000x128 .f32) (w wr : Vec Ideal S128x128 .f32) (b : Vec Ideal S1x128 .f32) (p : Fin 2000) (q : Fin 128) :
    k0_pay1 (F := Ideal) a x w wr b (ix2 p q)
      = (∑ k : Fin 128, a (ix2 p k) * w (ix2 k q) + ∑ k : Fin 128, x (ix2 p k) * wr (ix2 k q)) + b (ix2 (0 : Fin 1) q) := by
  unfold k0_pay1
  simp only [shapeCast_self]
  rw [addf_apply, addf_apply, matmul_at, matmul_at, bias_at]
  rfl

/-- What the second launch's grid point stores at row `p`, channel `q`. -/
theorem pay1_at (a x : Vec Ideal S2000x128 .f32) (w wr : Vec Ideal S128x128 .f32) (b : Vec Ideal S1x128 .f32) (p : Fin 2000) (q : Fin 128) :
    k1_pay1 (F := Ideal) a x w wr b (ix2 p q)
      = (∑ k : Fin 128, a (ix2 p k) * w (ix2 k q) + ∑ k : Fin 128, x (ix2 p k) * wr (ix2 k q)) + b (ix2 (0 : Fin 1) q) := by
  unfold k1_pay1
  simp only [shapeCast_self]
  rw [addf_apply, addf_apply, matmul_at, matmul_at, bias_at]
  rfl

end Cert.KernelIdeal.Body

end
-- ==== Proof.Dense.lean ====
/-
  One dense step of the two-layer graph convolution, as a function of whole arrays over the extended reals.

  With node features `x` (50000 × 128), neighbour sums `agg` (50000 × 128), weight matrices `w` and `wr`
  (128 × 128) and a bias row `b` (1 × 128), the step's value at node `r` and channel `j` is

      (Σ_k agg[r,k] · w[k,j]  +  Σ_k x[r,k] · wr[k,j])  +  b[0,j].

  The same three summands occur in another order, `(Σ_k agg[r,k] · w[k,j] + b[0,j]) + Σ_k x[r,k] · wr[k,j]`. Addition
  of extended reals is commutative and associative with no finiteness assumption, so the two orders agree
  (`add_right_comm`): nothing here asks whether an entry is finite.
-/
import Idealize.ShloMosaic.PureOps.Ideal
import Idealize.ShloMosaic.Lib.ValueIdx

noncomputable section

namespace Cert.GraphConv

open Idealize.ShloMosaic Idealize.ShloMosaic.ValueIdx

/-- Node features and neighbour sums: 50000 nodes, 128 channels. -/
abbrev Nodes : Shape := ⟨2, ![50000, 128]⟩
/-- A weight matrix. -/
abbrev Wt : Shape := ⟨2, ![128, 128]⟩
/-- The bias as one row. -/
abbrev Row : Shape := ⟨2, ![1, 128]⟩

/-- The dense step at node `r`, channel `j`: both products summed, then the bias. -/
def denseAt (agg x : Nodes.Idx → EReal) (w wr : Wt.Idx → EReal) (b : Row.Idx → EReal) (r : Fin 50000) (j : Fin 128) : EReal :=
  (∑ k : Fin 128, agg (ix2 r k) * w (ix2 k j) + ∑ k : Fin 128, x (ix2 r k) * wr (ix2 k j)) + b (ix2 (0 : Fin 1) j)

/-- The dense step as a whole array. -/
def dense (agg x : Nodes.Idx → EReal) (w wr : Wt.Idx → EReal) (b : Row.Idx → EReal) : Nodes.Idx → EReal :=
  fun i => denseAt agg x w wr b (i 0) (i 1)

theorem dense_apply (agg x : Nodes.Idx → EReal) (w wr : Wt.Idx → EReal) (b : Row.Idx → EReal) (r : Fin 50000) (j : Fin 128) :
    dense agg x w wr b (ix2 r j) = denseAt agg x w wr b r j := rfl

/-- The other order of the three summands: the bias joins the first product before the second product is added. -/
theorem denseAt_bias_first (agg x : Nodes.Idx → EReal) (w wr : Wt.Idx → EReal) (b : Row.Idx → EReal) (r : Fin 50000) (j : Fin 128) :
    (∑ k : Fin 128, agg (ix2 r k) * w (ix2 k j) + b (ix2 (0 : Fin 1) j)) + ∑ k : Fin 128, x (ix2 r k) * wr (ix2 k j)
      = denseAt agg x w wr b r j := by
  unfold denseAt
  exact add_right_comm _ _ _

end Cert.GraphConv

end
-- ==== Proof.KRegion0.lean ====
/-
  The first launch's result array. Each of the 25 grid points writes back one block of 2000 rows; the blocks tile the
  50000 rows, so the array after the launch is the dense step of the whole input arrays, whatever those hold when the
  launch begins.
-/
import proofs.«133569_j22428319219806_1_alg».proof.Proof.Gen.KernelIdeal.Frame
import proofs.«133569_j22428319219806_1_alg».proof.Proof.KBody
import proofs.«133569_j22428319219806_1_alg».proof.Proof.Dense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The launch's input arrays as it finds them, at their literal shapes. -/
abbrev aggArr (c : Dev nD) : Vec Ideal S50000x128 .f32 := V c main_v13
abbrev xArr (c : Dev nD) : Vec Ideal S50000x128 .f32 := V c main_arg0
abbrev wArr (c : Dev nD) : Vec Ideal S128x128 .f32 := V c main_arg2
abbrev bArr (c : Dev nD) : Vec Ideal S1x128 .f32 := V c main_v14
abbrev wrArr (c : Dev nD) : Vec Ideal S128x128 .f32 := V c main_arg4

/-- The printed index maps over the grid: the row-blocked windows sit at block `t`, the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row-blocked window's block at grid point `t`, read at row `p`, column `k`, is the array at row `2000·t + p`. -/
theorem aggBlock_at (c : Dev nD) (t : Fin cfg0.N) (p : Fin 2000) (k : Fin 128) (i : S50000x128.Idx)
    (h0 : (i 0).val = t.val * 2000 + p.val) (h1 : (i 1).val = k.val) :
    (iblk0 V c 0 t : Vec Ideal S2000x128 .f32) (ix2 p k) = aggArr V c i := by
  obtain ⟨e0, e1, -⟩ := idx_facts t
  show V c main_v13 (((cfg0.win 0).blk t).view.emb (ix2 p k)) = V c main_v13 i
  congr 1
  funext a; apply Fin.ext
  match a with
  | ⟨0, _⟩ => show win0_0.index t (0 : Fin 2) * 2000 + 1 * p.val = (i 0).val; rw [e0, h0]; omega
  | ⟨1, _⟩ => show win0_0.index t (1 : Fin 2) * 128 + 1 * k.val = (i 1).val; rw [e1, h1]; omega

theorem xBlock_at (c : Dev nD) (t : Fin cfg0.N) (p : Fin 2000) (k : Fin 128) (i : S50000x128.Idx)
    (h0 : (i 0).val = t.val * 2000 + p.val) (h1 : (i 1).val = k.val) :
    (iblk0 V c 1 t : Vec Ideal S2000x128 .f32) (ix2 p k) = xArr V c i := by
  obtain ⟨-, -, e0, e1, -⟩ := idx_facts t
  show V c main_arg0 (((cfg0.win 1).blk t).view.emb (ix2 p k)) = V c main_arg0 i
  congr 1
  funext a; apply Fin.ext
  match a with
  | ⟨0, _⟩ => show win0_1.index t (0 : Fin 2) * 2000 + 1 * p.val = (i 0).val; rw [e0, h0]; omega
  | ⟨1, _⟩ => show win0_1.index t (1 : Fin 2) * 128 + 1 * k.val = (i 1).val; rw [e1, h1]; omega

/-- The weight and bias windows hold their whole arrays at every grid point. -/
theorem wBlock_at (c : Dev nD) (t : Fin cfg0.N) (k q : Fin 128) :
    (iblk0 V c 2 t : Vec Ideal S128x128 .f32) (ix2 k q) = wArr V c (ix2 k q) := by
  obtain ⟨-, -, -, -, e0, e1, -⟩ := idx_facts t
  show V c main_arg2 (((cfg0.win 2).blk t).view.emb (ix2 k q)) = V c main_arg2 (ix2 k q)
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem bBlock_at (c : Dev nD) (t : Fin cfg0.N) (q : Fin 128) :
    (iblk0 V c 3 t : Vec Ideal S1x128 .f32) (ix2 (0 : Fin 1) q) = bArr V c (ix2 (0 : Fin 1) q) := by
  obtain ⟨-, -, -, -, -, -, e0, e1, -⟩ := idx_facts t
  show V c main_v14 (((cfg0.win 3).blk t).view.emb (ix2 (0 : Fin 1) q)) = V c main_v14 (ix2 (0 : Fin 1) q)
  congr 1
  funext a; apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

theorem wrBlock_at (c : Dev nD) (t : Fin cfg0.N) (k q : Fin 128) :
    (iblk0 V c 4 t : Vec Ideal S128x128 .f32) (ix2 k q) = wrArr V c (ix2 k q) := by
  obtain ⟨-, -, -, -, -, -, -, -, e0, e1, -⟩ := idx_facts t
  show V c main_arg4 (((cfg0.win 4).blk t).view.emb (ix2 k q)) = V c main_arg4 (ix2 k q)
  congr 1
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The five input blocks of grid point `t`, each at its literal shape. -/
def aBlk (c : Dev nD) (t : Fin cfg0.N) : Vec Ideal S2000x128 .f32 := iblk0 V c 0 t
def xBlk (c : Dev nD) (t : Fin cfg0.N) : Vec Ideal S2000x128 .f32 := iblk0 V c 1 t
def wBlk (c : Dev nD) (t : Fin cfg0.N) : Vec Ideal S128x128 .f32 := iblk0 V c 2 t
def bBlk (c : Dev nD) (t : Fin cfg0.N) : Vec Ideal S1x128 .f32 := iblk0 V c 3 t
def wrBlk (c : Dev nD) (t : Fin cfg0.N) : Vec Ideal S128x128 .f32 := iblk0 V c 4 t

theorem aBlk_at (c : Dev nD) (t : Fin cfg0.N) (p : Fin 2000) (k : Fin 128) (i : S50000x128.Idx)
    (h0 : (i 0).val = t.val * 2000 + p.val) (h1 : (i 1).val = k.val) : aBlk V c t (ix2 p k) = aggArr V c i := by
  unfold aBlk; exact aggBlock_at V c t p k i h0 h1
theorem xBlk_at (c : Dev nD) (t : Fin cfg0.N) (p : Fin 2000) (k : Fin 128) (i : S50000x128.Idx)
    (h0 : (i 0).val = t.val * 2000 + p.val) (h1 : (i 1).val = k.val) : xBlk V c t (ix2 p k) = xArr V c i := by
  unfold xBlk; exact xBlock_at V c t p k i h0 h1
theorem wBlk_at (c : Dev nD) (t : Fin cfg0.N) (k q : Fin 128) : wBlk V c t (ix2 k q) = wArr V c (ix2 k q) := by
  unfold wBlk; exact wBlock_at V c t k q
theorem bBlk_at (c : Dev nD) (t : Fin cfg0.N) (q : Fin 128) : bBlk V c t (ix2 (0 : Fin 1) q) = bArr V c (ix2 (0 : Fin 1) q) := by
  unfold bBlk; exact bBlock_at V c t q
theorem wrBlk_at (c : Dev nD) (t : Fin cfg0.N) (k q : Fin 128) : wrBlk V c t (ix2 k q) = wrArr V c (ix2 k q) := by
  unfold wrBlk; exact wrBlock_at V c t k q

/-- What grid point `t` stores at row `p`, channel `q` of its block is the dense step at node `2000·t + p`. -/
theorem stored_at (c : Dev nD) (t : Fin cfg0.N) (p : Fin 2000) (q : Fin 128) (r : Fin 50000) (hr : r.val = t.val * 2000 + p.val) :
    k0_pay1 (F := Ideal) (aBlk V c t) (xBlk V c t) (wBlk V c t) (wrBlk V c t) (bBlk V c t) (ix2 p q)
      = denseAt (aggArr V c) (xArr V c) (wArr V c) (wrArr V c) (bArr V c) r q := by
  have hA : ∑ k : Fin 128, aBlk V c t (ix2 p k) * wBlk V c t (ix2 k q) = ∑ k : Fin 128, aggArr V c (ix2 r k) * wArr V c (ix2 k q) :=
    Finset.sum_congr rfl fun k _ => by rw [aBlk_at V c t p k (ix2 r k) hr rfl, wBlk_at V c t k q]
  have hX : ∑ k : Fin 128, xBlk V c t (ix2 p k) * wrBlk V c t (ix2 k q) = ∑ k : Fin 128, xArr V c (ix2 r k) * wrArr V c (ix2 k q) :=
    Finset.sum_congr rfl fun k _ => by rw [xBlk_at V c t p k (ix2 r k) hr rfl, wrBlk_at V c t k q]
  rw [Cert.KernelIdeal.Body.pay0_at, bBlk_at V c t q, hA, hX]
  rfl

/-- What grid point `t` writes back is block `t` of the dense step of the arrays the launch found. -/
theorem flushed_eq (c : Dev nD) (t : Fin cfg0.N) :
    (dat0 V c).flushed 5 t = ((cfg0.win 5).blk t).view.read (Elt Ideal)
      (dense (aggArr V c) (xArr V c) (wArr V c) (wrArr V c) (bArr V c)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have ht : t.val < 25 := lt_of_lt_of_eq t.isLt N_0
  show k0_pay1 (F := Ideal) (aBlk V c t) (xBlk V c t) (wBlk V c t) (wrBlk V c t) (bBlk V c t) (ix2 p q)
    = dense (aggArr V c) (xArr V c) (wArr V c) (wrArr V c) (bArr V c) (((cfg0.win 5).blk t).view.emb (ix2 p q))
  rw [stored_at V c t p q ⟨t.val * 2000 + p.val, by have := p.isLt; omega⟩ rfl]
  have hr0 : (⟨t.val * 2000 + p.val, by have := p.isLt; omega⟩ : Fin 50000) = (((cfg0.win 5).blk t).view.emb (ix2 p q)) 0 := by
    apply Fin.ext
    show t.val * 2000 + p.val = win0_5.index t (0 : Fin 2) * 2000 + 1 * p.val
    rw [e0]; omega
  have hq1 : q = (((cfg0.win 5).blk t).view.emb (ix2 p q)) 1 := by
    apply Fin.ext
    show q.val = win0_5.index t (1 : Fin 2) * 128 + 1 * q.val
    rw [e1]; omega
  exact congrArg₂ (denseAt (aggArr V c) (xArr V c) (wArr V c) (wrArr V c) (bArr V c)) hr0 hq1

/-- An index of the result array lies in grid point `t`'s block iff its row is among the block's 2000 rows. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Every block index 0 … 24 is some grid point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- The 25 blocks of 2000 rows tile the 50000 rows. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the first launch: the dense step of the arrays the launch found. -/
theorem final (c : Dev nD) : (dat0 V c).arrAt 5 cfg0.N = dense (aggArr V c) (xArr V c) (wArr V c) (wrArr V c) (bArr V c) :=
  (dat0 V c).arrAt_eq_of_cover 5 (dense (aggArr V c) (xArr V c) (wArr V c) (wrArr V c) (bArr V c))
    (fun t _ => flushed_eq V c t) covered

end Cert.KernelIdeal.Region0

end
-- ==== Proof.KRegion1.lean ====
/-
  The second launch's result array. Each of the 25 grid points writes back one block of 2000 rows; the blocks tile the
  50000 rows, so the array after the launch is the dense step of the whole input arrays, whatever those hold when the
  launch begins.
-/
import proofs.«133569_j22428319219806_1_alg».proof.Proof.Gen.KernelIdeal.Frame
import proofs.«133569_j22428319219806_1_alg».proof.Proof.KBody
import proofs.«133569_j22428319219806_1_alg».proof.Proof.Dense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- The launch's input arrays as it finds them, at their literal shapes. -/
abbrev aggArr (c : Dev nD) : Vec Ideal S50000x128 .f32 := V c main_v29
abbrev xArr (c : Dev nD) : Vec Ideal S50000x128 .f32 := V c main_v15
abbrev wArr (c : Dev nD) : Vec Ideal S128x128 .f32 := V c main_arg5
abbrev bArr (c : Dev nD) : Vec Ideal S1x128 .f32 := V c main_v30
abbrev wrArr (c : Dev nD) : Vec Ideal S128x128 .f32 := V c main_arg7

/-- The printed index maps over the grid: the row-blocked windows sit at block `t`, the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row-blocked window's block at grid point `t`, read at row `p`, column `k`, is the array at row `2000·t + p`. -/
theorem aggBlock_at (c : Dev nD) (t : Fin cfg1.N) (p : Fin 2000) (k : Fin 128) (i : S50000x128.Idx)
    (h0 : (i 0).val = t.val * 2000 + p.val) (h1 : (i 1).val = k.val) :
    (iblk1 V c 0 t : Vec Ideal S2000x128 .f32) (ix2 p k) = aggArr V c i := by
  obtain ⟨e0, e1, -⟩ := idx_facts t
  show V c main_v29 (((cfg1.win 0).blk t).view.emb (ix2 p k)) = V c main_v29 i
  congr 1
  funext a; apply Fin.ext
  match a with
  | ⟨0, _⟩ => show win1_0.index t (0 : Fin 2) * 2000 + 1 * p.val = (i 0).val; rw [e0, h0]; omega
  | ⟨1, _⟩ => show win1_0.index t (1 : Fin 2) * 128 + 1 * k.val = (i 1).val; rw [e1, h1]; omega

theorem xBlock_at (c : Dev nD) (t : Fin cfg1.N) (p : Fin 2000) (k : Fin 128) (i : S50000x128.Idx)
    (h0 : (i 0).val = t.val * 2000 + p.val) (h1 : (i 1).val = k.val) :
    (iblk1 V c 1 t : Vec Ideal S2000x128 .f32) (ix2 p k) = xArr V c i := by
  obtain ⟨-, -, e0, e1, -⟩ := idx_facts t
  show V c main_v15 (((cfg1.win 1).blk t).view.emb (ix2 p k)) = V c main_v15 i
  congr 1
  funext a; apply Fin.ext
  match a with
  | ⟨0, _⟩ => show win1_1.index t (0 : Fin 2) * 2000 + 1 * p.val = (i 0).val; rw [e0, h0]; omega
  | ⟨1, _⟩ => show win1_1.index t (1 : Fin 2) * 128 + 1 * k.val = (i 1).val; rw [e1, h1]; omega

/-- The weight and bias windows hold their whole arrays at every grid point. -/
theorem wBlock_at (c : Dev nD) (t : Fin cfg1.N) (k q : Fin 128) :
    (iblk1 V c 2 t : Vec Ideal S128x128 .f32) (ix2 k q) = wArr V c (ix2 k q) := by
  obtain ⟨-, -, -, -, e0, e1, -⟩ := idx_facts t
  show V c main_arg5 (((cfg1.win 2).blk t).view.emb (ix2 k q)) = V c main_arg5 (ix2 k q)
  congr 1
  funext a; apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem bBlock_at (c : Dev nD) (t : Fin cfg1.N) (q : Fin 128) :
    (iblk1 V c 3 t : Vec Ideal S1x128 .f32) (ix2 (0 : Fin 1) q) = bArr V c (ix2 (0 : Fin 1) q) := by
  obtain ⟨-, -, -, -, -, -, e0, e1, -⟩ := idx_facts t
  show V c main_v30 (((cfg1.win 3).blk t).view.emb (ix2 (0 : Fin 1) q)) = V c main_v30 (ix2 (0 : Fin 1) q)
  congr 1
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

theorem wrBlock_at (c : Dev nD) (t : Fin cfg1.N) (k q : Fin 128) :
    (iblk1 V c 4 t : Vec Ideal S128x128 .f32) (ix2 k q) = wrArr V c (ix2 k q) := by
  obtain ⟨-, -, -, -, -, -, -, -, e0, e1, -⟩ := idx_facts t
  show V c main_arg7 (((cfg1.win 4).blk t).view.emb (ix2 k q)) = V c main_arg7 (ix2 k q)
  congr 1
  funext a; apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The five input blocks of grid point `t`, each at its literal shape. -/
def aBlk (c : Dev nD) (t : Fin cfg1.N) : Vec Ideal S2000x128 .f32 := iblk1 V c 0 t
def xBlk (c : Dev nD) (t : Fin cfg1.N) : Vec Ideal S2000x128 .f32 := iblk1 V c 1 t
def wBlk (c : Dev nD) (t : Fin cfg1.N) : Vec Ideal S128x128 .f32 := iblk1 V c 2 t
def bBlk (c : Dev nD) (t : Fin cfg1.N) : Vec Ideal S1x128 .f32 := iblk1 V c 3 t
def wrBlk (c : Dev nD) (t : Fin cfg1.N) : Vec Ideal S128x128 .f32 := iblk1 V c 4 t

theorem aBlk_at (c : Dev nD) (t : Fin cfg1.N) (p : Fin 2000) (k : Fin 128) (i : S50000x128.Idx)
    (h0 : (i 0).val = t.val * 2000 + p.val) (h1 : (i 1).val = k.val) : aBlk V c t (ix2 p k) = aggArr V c i := by
  unfold aBlk; exact aggBlock_at V c t p k i h0 h1
theorem xBlk_at (c : Dev nD) (t : Fin cfg1.N) (p : Fin 2000) (k : Fin 128) (i : S50000x128.Idx)
    (h0 : (i 0).val = t.val * 2000 + p.val) (h1 : (i 1).val = k.val) : xBlk V c t (ix2 p k) = xArr V c i := by
  unfold xBlk; exact xBlock_at V c t p k i h0 h1
theorem wBlk_at (c : Dev nD) (t : Fin cfg1.N) (k q : Fin 128) : wBlk V c t (ix2 k q) = wArr V c (ix2 k q) := by
  unfold wBlk; exact wBlock_at V c t k q
theorem bBlk_at (c : Dev nD) (t : Fin cfg1.N) (q : Fin 128) : bBlk V c t (ix2 (0 : Fin 1) q) = bArr V c (ix2 (0 : Fin 1) q) := by
  unfold bBlk; exact bBlock_at V c t q
theorem wrBlk_at (c : Dev nD) (t : Fin cfg1.N) (k q : Fin 128) : wrBlk V c t (ix2 k q) = wrArr V c (ix2 k q) := by
  unfold wrBlk; exact wrBlock_at V c t k q

/-- What grid point `t` stores at row `p`, channel `q` of its block is the dense step at node `2000·t + p`. -/
theorem stored_at (c : Dev nD) (t : Fin cfg1.N) (p : Fin 2000) (q : Fin 128) (r : Fin 50000) (hr : r.val = t.val * 2000 + p.val) :
    k1_pay1 (F := Ideal) (aBlk V c t) (xBlk V c t) (wBlk V c t) (wrBlk V c t) (bBlk V c t) (ix2 p q)
      = denseAt (aggArr V c) (xArr V c) (wArr V c) (wrArr V c) (bArr V c) r q := by
  have hA : ∑ k : Fin 128, aBlk V c t (ix2 p k) * wBlk V c t (ix2 k q) = ∑ k : Fin 128, aggArr V c (ix2 r k) * wArr V c (ix2 k q) :=
    Finset.sum_congr rfl fun k _ => by rw [aBlk_at V c t p k (ix2 r k) hr rfl, wBlk_at V c t k q]
  have hX : ∑ k : Fin 128, xBlk V c t (ix2 p k) * wrBlk V c t (ix2 k q) = ∑ k : Fin 128, xArr V c (ix2 r k) * wrArr V c (ix2 k q) :=
    Finset.sum_congr rfl fun k _ => by rw [xBlk_at V c t p k (ix2 r k) hr rfl, wrBlk_at V c t k q]
  rw [Cert.KernelIdeal.Body.pay1_at, bBlk_at V c t q, hA, hX]
  rfl

/-- What grid point `t` writes back is block `t` of the dense step of the arrays the launch found. -/
theorem flushed_eq (c : Dev nD) (t : Fin cfg1.N) :
    (dat1 V c).flushed 5 t = ((cfg1.win 5).blk t).view.read (Elt Ideal)
      (dense (aggArr V c) (xArr V c) (wArr V c) (wrArr V c) (bArr V c)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have ht : t.val < 25 := lt_of_lt_of_eq t.isLt N_1
  show k1_pay1 (F := Ideal) (aBlk V c t) (xBlk V c t) (wBlk V c t) (wrBlk V c t) (bBlk V c t) (ix2 p q)
    = dense (aggArr V c) (xArr V c) (wArr V c) (wrArr V c) (bArr V c) (((cfg1.win 5).blk t).view.emb (ix2 p q))
  rw [stored_at V c t p q ⟨t.val * 2000 + p.val, by have := p.isLt; omega⟩ rfl]
  have hr0 : (⟨t.val * 2000 + p.val, by have := p.isLt; omega⟩ : Fin 50000) = (((cfg1.win 5).blk t).view.emb (ix2 p q)) 0 := by
    apply Fin.ext
    show t.val * 2000 + p.val = win1_5.index t (0 : Fin 2) * 2000 + 1 * p.val
    rw [e0]; omega
  have hq1 : q = (((cfg1.win 5).blk t).view.emb (ix2 p q)) 1 := by
    apply Fin.ext
    show q.val = win1_5.index t (1 : Fin 2) * 128 + 1 * q.val
    rw [e1]; omega
  exact congrArg₂ (denseAt (aggArr V c) (xArr V c) (wArr V c) (wrArr V c) (bArr V c)) hr0 hq1

/-- An index of the result array lies in grid point `t`'s block iff its row is among the block's 2000 rows. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v31).slice (win1_5.rect t)).set ↔ _
  rw [View.set_slice_whole, Rect.mem_set_unit]
  exact Iff.rfl

/-- Every block index 0 … 24 is some grid point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- The 25 blocks of 2000 rows tile the 50000 rows. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The result array after the second launch: the dense step of the arrays the launch found. -/
theorem final (c : Dev nD) : (dat1 V c).arrAt 5 cfg1.N = dense (aggArr V c) (xArr V c) (wArr V c) (wrArr V c) (bArr V c) :=
  (dat1 V c).arrAt_eq_of_cover 5 (dense (aggArr V c) (xArr V c) (wArr V c) (wrArr V c) (bArr V c))
    (fun t _ => flushed_eq V c t) covered

end Cert.KernelIdeal.Region1

end
-- ==== Proof.KValue.lean ====
/-
  The kernel program's result array, read back through its four segments.

  The program runs: host operations forming the neighbour sums of the input features along the edge list and the first
  bias as a row; the first launch of the dense kernel; the same host operations on the first launch's result, with the
  second bias; the second launch. Each launch leaves the dense step of the arrays it found (the two launch modules), each
  host stretch leaves its operations' results at their own buffers and every other buffer as it was. So the result is

      dense (agg h e) h w5 w7 (row b6)    with   h = dense (agg x e) x w2 w4 (row b3),

  where `agg` is the host's gather along the edges' sources summed into the edges' targets.
-/
import proofs.«133569_j22428319219806_1_alg».proof.Proof.Gen.KernelIdeal.Frame
import proofs.«133569_j22428319219806_1_alg».proof.Proof.KRegion0
import proofs.«133569_j22428319219806_1_alg».proof.Proof.KRegion1
import proofs.«133569_j22428319219806_1_alg».proof.Proof.Dense
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.GraphConv

variable (m : (ℓ : Loc nD τ sig) → Buf (Elt Ideal) ℓ) (ρ : Dev nD → PrngReg)

/-- The neighbour sums the host forms from features `x` along the edge list `e`: row `e[0,n]` of `x` (a negative
    index counted from the end) gathered for every edge `n`, and the gathered rows summed into row `e[1,n]` of a zero array. -/
def agg (x : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (shapeCast _ (extractStridedSlice S1x800000 ![1, 0] e slices_S2x800000_S1x800000_1_0) shapeCasts_S1x800000_S800000))
    (Host.gather gather_S50000x128_S800000x1_S800000x128_1_0_n_n_0_1_1128 x
      (broadcastInDim S800000x1 ![0] bcast_S800000_S800000x1_0
        (select (cmpi .slt (shapeCast _ (extractStridedSlice S1x800000 ![0, 0] e slices_S2x800000_S1x800000_0_0) shapeCasts_S1x800000_S800000) (broadcastInDim S800000 ![] bcast_S_S800000 (constantI S_ 32 0#32)))
          (addi (shapeCast _ (extractStridedSlice S1x800000 ![0, 0] e slices_S2x800000_S1x800000_0_0) shapeCasts_S1x800000_S800000) (broadcastInDim S800000 ![] bcast_S_S800000 (constantI S_ 32 50000#32)))
          (shapeCast _ (extractStridedSlice S1x800000 ![0, 0] e slices_S2x800000_S1x800000_0_0) shapeCasts_S1x800000_S800000))))

/-- A bias vector reshaped to one row. -/
abbrev row (b : (⟨S128, .f32⟩ : BufTy).Contents (Elt Ideal)) : (⟨S1x128, .f32⟩ : BufTy).Contents (Elt Ideal) :=
  shapeCast S1x128 b shapeCasts_S128_S1x128

/-! ## The first launch's entry: after the first host stretch -/

set_option maxRecDepth 65536 in
theorem entry0_agg (c : Dev nD) :
    (V1 m ρ c main_v13 : S50000x128.Idx → EReal) = agg (m ((c : Thread nD τ).loc main_arg0)) (m ((c : Thread nD τ).loc main_arg1)) := by
  show StableHlo.after hostOps0 (W0 m ρ c) (Proc.devRef .tc main_v13) = _
  after_results
  rfl

theorem entry0_x (c : Dev nD) :
    (V1 m ρ c main_arg0 : S50000x128.Idx → EReal) = m ((c : Thread nD τ).loc main_arg0) := by
  show StableHlo.after hostOps0 (W0 m ρ c) (Proc.devRef .tc main_arg0) = _
  after_results

theorem entry0_w (c : Dev nD) :
    (V1 m ρ c main_arg2 : S128x128.Idx → EReal) = m ((c : Thread nD τ).loc main_arg2) := by
  show StableHlo.after hostOps0 (W0 m ρ c) (Proc.devRef .tc main_arg2) = _
  after_results

theorem entry0_wr (c : Dev nD) :
    (V1 m ρ c main_arg4 : S128x128.Idx → EReal) = m ((c : Thread nD τ).loc main_arg4) := by
  show StableHlo.after hostOps0 (W0 m ρ c) (Proc.devRef .tc main_arg4) = _
  after_results

theorem entry0_b (c : Dev nD) :
    (V1 m ρ c main_v14 : S1x128.Idx → EReal) = row (m ((c : Thread nD τ).loc main_arg3)) := by
  show StableHlo.after hostOps0 (W0 m ρ c) (Proc.devRef .tc main_v14) = _
  after_results
  rfl

/-! ## After the first launch -/

/-- The first layer's result: the dense step of the input features' neighbour sums, the features, the first layer's
    weights and bias. -/
def hidden (c : Dev nD) : Nodes.Idx → EReal :=
  dense (agg (m ((c : Thread nD τ).loc main_arg0)) (m ((c : Thread nD τ).loc main_arg1))) (m ((c : Thread nD τ).loc main_arg0))
    (m ((c : Thread nD τ).loc main_arg2)) (m ((c : Thread nD τ).loc main_arg4)) (row (m ((c : Thread nD τ).loc main_arg3)))

theorem mid_hidden (c : Dev nD) :
    (W2 m ρ c (Proc.devRef .tc main_v15) : S50000x128.Idx → EReal) = hidden m c := by
  refine ((W2_arr m ρ c 5).trans (Cert.KernelIdeal.Region0.final (V1 m ρ) c)).trans ?_
  show dense (V1 m ρ c main_v13) (V1 m ρ c main_arg0) (V1 m ρ c main_arg2) (V1 m ρ c main_arg4) (V1 m ρ c main_v14) = _
  rw [entry0_agg, entry0_x, entry0_w, entry0_wr, entry0_b]
  rfl

theorem mid_e (c : Dev nD) :
    (W2 m ρ c (Proc.devRef .tc main_arg1) : S2x800000.Idx → BitVec 32) = m ((c : Thread nD τ).loc main_arg1) :=
  (W2_of_ne m ρ c main_arg1 (by decide)).trans (by
    show StableHlo.after hostOps0 (W0 m ρ c) (Proc.devRef .tc main_arg1) = _
    after_results)

theorem mid_w (c : Dev nD) :
    (W2 m ρ c (Proc.devRef .tc main_arg5) : S128x128.Idx → EReal) = m ((c : Thread nD τ).loc main_arg5) :=
  (W2_of_ne m ρ c main_arg5 (by decide)).trans (by
    show StableHlo.after hostOps0 (W0 m ρ c) (Proc.devRef .tc main_arg5) = _
    after_results)

theorem mid_wr (c : Dev nD) :
    (W2 m ρ c (Proc.devRef .tc main_arg7) : S128x128.Idx → EReal) = m ((c : Thread nD τ).loc main_arg7) :=
  (W2_of_ne m ρ c main_arg7 (by decide)).trans (by
    show StableHlo.after hostOps0 (W0 m ρ c) (Proc.devRef .tc main_arg7) = _
    after_results)

theorem mid_b (c : Dev nD) :
    (W2 m ρ c (Proc.devRef .tc main_arg6) : S128.Idx → EReal) = m ((c : Thread nD τ).loc main_arg6) :=
  (W2_of_ne m ρ c main_arg6 (by decide)).trans (by
    show StableHlo.after hostOps0 (W0 m ρ c) (Proc.devRef .tc main_arg6) = _
    after_results)

/-! ## The second launch's entry: after the second host stretch -/

set_option maxRecDepth 65536 in
theorem entry1_agg (c : Dev nD) :
    (V3 m ρ c main_v29 : S50000x128.Idx → EReal)
      = agg (W2 m ρ c (Proc.devRef .tc main_v15)) (W2 m ρ c (Proc.devRef .tc main_arg1)) := by
  show StableHlo.after hostOps1 (W2 m ρ c) (Proc.devRef .tc main_v29) = _
  after_results
  rfl

theorem entry1_x (c : Dev nD) :
    (V3 m ρ c main_v15 : S50000x128.Idx → EReal) = W2 m ρ c (Proc.devRef .tc main_v15) := by
  show StableHlo.after hostOps1 (W2 m ρ c) (Proc.devRef .tc main_v15) = _
  after_results

theorem entry1_w (c : Dev nD) :
    (V3 m ρ c main_arg5 : S128x128.Idx → EReal) = W2 m ρ c (Proc.devRef .tc main_arg5) := by
  show StableHlo.after hostOps1 (W2 m ρ c) (Proc.devRef .tc main_arg5) = _
  after_results

theorem entry1_wr (c : Dev nD) :
    (V3 m ρ c main_arg7 : S128x128.Idx → EReal) = W2 m ρ c (Proc.devRef .tc main_arg7) := by
  show StableHlo.after hostOps1 (W2 m ρ c) (Proc.devRef .tc main_arg7) = _
  after_results

theorem entry1_b (c : Dev nD) :
    (V3 m ρ c main_v30 : S1x128.Idx → EReal) = row (W2 m ρ c (Proc.devRef .tc main_arg6)) := by
  show StableHlo.after hostOps1 (W2 m ρ c) (Proc.devRef .tc main_v30) = _
  after_results
  rfl

/-! ## After the second launch -/

/-- The program's result: the dense step of the first layer's result's neighbour sums, the first layer's result, the
    second layer's weights and bias. -/
def result (c : Dev nD) : Nodes.Idx → EReal :=
  dense (agg (hidden m c) (m ((c : Thread nD τ).loc main_arg1))) (hidden m c)
    (m ((c : Thread nD τ).loc main_arg5)) (m ((c : Thread nD τ).loc main_arg7)) (row (m ((c : Thread nD τ).loc main_arg6)))

theorem result_eq (c : Dev nD) :
    (W4 m ρ c (Proc.devRef .tc main_v31) : S50000x128.Idx → EReal) = result m c := by
  refine ((W4_arr m ρ c 5).trans (Cert.KernelIdeal.Region1.final (V3 m ρ) c)).trans ?_
  show dense (V3 m ρ c main_v29) (V3 m ρ c main_v15) (V3 m ρ c main_arg5) (V3 m ρ c main_arg7) (V3 m ρ c main_v30) = _
  rw [entry1_agg, entry1_x, entry1_w, entry1_wr, entry1_b, mid_hidden, mid_e, mid_w, mid_wr, mid_b]
  rfl

end Cert.KernelIdeal.Chain

end
-- ==== Proof.RefSide.lean ====
/-
  The reference program's result, read as two dense steps.

  The reference computes one graph-convolution layer as: neighbour sums of the features (a gather along the edges'
  sources, summed into the edges' targets), times the first weight matrix, plus the bias, plus the features times the second
  weight matrix. Its second layer is the same stages applied to the first layer's result with the second layer's weights.
  At node `r`, channel `j` one layer is `(Σ_k agg[r,k] · w[k,j] + b[j]) + Σ_k x[r,k] · wr[k,j]`: the dense step with
  the bias added before the second product, equal to the dense step itself because addition of extended reals is
  commutative and associative.
-/
import proofs.«133569_j22428319219806_1_alg».proof.Proof.Gen.ReferenceIdeal.Run
import proofs.«133569_j22428319219806_1_alg».proof.Proof.Gen.ReferenceIdeal.Read
import proofs.«133569_j22428319219806_1_alg».proof.Proof.Dense

noncomputable section

open Idealize.ShloMosaic Idealize.ShloMosaic.TcCoe Idealize.ShloMosaic.ValueIdx

namespace Cert.ReferenceIdeal.Layer

open Cert.ReferenceIdeal Cert.ReferenceIdeal.Read Cert.GraphConv

/-- A bias vector as the one-row array the dense step reads. -/
def rowOf (b : (⟨S128, .f32⟩ : BufTy).Contents (Elt Ideal)) : Row.Idx → EReal := fun i => b (ix1 (i 1))

/-- The neighbour sums the reference forms from features `x` along the edge list `e`. -/
abbrev agg (x : (⟨S50000x128, .f32⟩ : BufTy).Contents (Elt Ideal)) (e : (⟨S2x800000, .i32⟩ : BufTy).Contents (Elt Ideal)) :
    (⟨S50000x128, .f32⟩ : BufTy).Contents (Elt Ideal) := val_main_v13 (F := Ideal) x e

/-- One layer of the reference: the stages up to the first layer's result, as a function of the features, the edge list,
    the two weight matrices and the bias. -/
abbrev layer (x : (⟨S50000x128, .f32⟩ : BufTy).Contents (Elt Ideal)) (e : (⟨S2x800000, .i32⟩ : BufTy).Contents (Elt Ideal))
    (w : (⟨S128x128, .f32⟩ : BufTy).Contents (Elt Ideal)) (b : (⟨S128, .f32⟩ : BufTy).Contents (Elt Ideal))
    (wr : (⟨S128x128, .f32⟩ : BufTy).Contents (Elt Ideal)) : (⟨S50000x128, .f32⟩ : BufTy).Contents (Elt Ideal) :=
  val_main_v19 (F := Ideal) x e w b wr

/-- The second layer's stages are the first layer's stages, applied to the first layer's result. -/
theorem result_two_layers (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v39 (F := Ideal) x0 x1 x2 x3 x4 x5 x6 x7 = layer (layer x0 x1 x2 x3 x4) x1 x5 x6 x7 := by
  rfl

/-- One layer of the reference at node `r`, channel `j` is the dense step of its neighbour sums, its features, its
    weights and its bias row. -/
theorem layer_at (x : (⟨S50000x128, .f32⟩ : BufTy).Contents (Elt Ideal)) (e : (⟨S2x800000, .i32⟩ : BufTy).Contents (Elt Ideal))
    (w : (⟨S128x128, .f32⟩ : BufTy).Contents (Elt Ideal)) (b : (⟨S128, .f32⟩ : BufTy).Contents (Elt Ideal))
    (wr : (⟨S128x128, .f32⟩ : BufTy).Contents (Elt Ideal)) (r : Fin 50000) (j : Fin 128) :
    layer x e w b wr (ix2 r j) = denseAt (agg x e) x w wr (rowOf b) r j := by
  have e1 : ∀ k : Fin 128, lidx_main_v14 (ix2 r j) k = ix2 r k := fun k => funext fun a => Fin.ext (by
    match a with | ⟨0, _⟩ => rfl | ⟨1, _⟩ => rfl)
  have e2 : ∀ k : Fin 128, ridx_main_v14 (ix2 r j) k = ix2 k j := fun k => funext fun a => Fin.ext (by
    match a with | ⟨0, _⟩ => rfl | ⟨1, _⟩ => rfl)
  have e3 : ∀ k : Fin 128, lidx_main_v18 (ix2 r j) k = ix2 r k := fun k => funext fun a => Fin.ext (by
    match a with | ⟨0, _⟩ => rfl | ⟨1, _⟩ => rfl)
  have e4 : ∀ k : Fin 128, ridx_main_v18 (ix2 r j) k = ix2 k j := fun k => funext fun a => Fin.ext (by
    match a with | ⟨0, _⟩ => rfl | ⟨1, _⟩ => rfl)
  have e5 : idx_main_v15 (idx_main_v16 (ix2 r j)) = ix1 j := funext fun a => Fin.ext (by
    match a with | ⟨0, _⟩ => rfl)
  show val_main_v19 (F := Ideal) x e w b wr (ix2 r j) = _
  rw [val_main_v19_apply, val_main_v17_apply, val_main_v14_apply, val_main_v18_apply, val_main_v16_apply, val_main_v15_apply]
  simp only [e1, e2, e3, e4, e5, Ideal.addf_def]
  exact denseAt_bias_first (agg x e) x w wr (rowOf b) r j

/-- One layer of the reference, as a whole array. -/
theorem layer_eq (x : (⟨S50000x128, .f32⟩ : BufTy).Contents (Elt Ideal)) (e : (⟨S2x800000, .i32⟩ : BufTy).Contents (Elt Ideal))
    (w : (⟨S128x128, .f32⟩ : BufTy).Contents (Elt Ideal)) (b : (⟨S128, .f32⟩ : BufTy).Contents (Elt Ideal))
    (wr : (⟨S128x128, .f32⟩ : BufTy).Contents (Elt Ideal)) :
    layer x e w b wr = dense (agg x e) x w wr (rowOf b) := by
  funext i
  obtain ⟨r, j, rfl⟩ : ∃ (r : Fin 50000) (j : Fin 128), i = ix2 r j := ⟨i 0, i 1, eq_ix2 i⟩
  exact layer_at x e w b wr r j

end Cert.ReferenceIdeal.Layer

end
-- ==== Proof.Bridge.lean ====
/-
  The kernel program and the reference compute one function.

  Both programs form the same neighbour sums (the same host gather and sum, operation for operation), and both take two
  dense steps. The kernel's dense step adds the bias last, the reference's adds it before the second product; the two are
  equal on the extended reals (the dense-step module). The kernel reshapes the bias vector to one row, the reference
  broadcasts it; both read entry `j` of the vector at channel `j`.
-/
import proofs.«133569_j22428319219806_1_alg».proof.Proof.KValue
import proofs.«133569_j22428319219806_1_alg».proof.Proof.RefSide
import Idealize.ShloMosaic.Lib.Pipeline.Value

noncomputable section

open Idealize.ShloMosaic Idealize.ShloMosaic.TcCoe Idealize.ShloMosaic.ValueIdx

namespace Cert.Bridge

open Cert.GraphConv

/-- The two programs' neighbour sums are the same operations of the same operands. -/
theorem agg_eq (x : (⟨Cert.KernelIdeal.S50000x128, .f32⟩ : BufTy).Contents (Elt Ideal))
    (e : (⟨Cert.KernelIdeal.S2x800000, .i32⟩ : BufTy).Contents (Elt Ideal)) :
    Cert.KernelIdeal.Chain.agg x e = Cert.ReferenceIdeal.Layer.agg x e := rfl

/-- The bias vector reshaped to one row reads, at channel `j`, the vector's entry `j`. -/
theorem row_eq (b : (⟨Cert.KernelIdeal.S128, .f32⟩ : BufTy).Contents (Elt Ideal)) :
    (Cert.KernelIdeal.Chain.row b : Row.Idx → EReal) = Cert.ReferenceIdeal.Layer.rowOf b := by
  funext i
  unfold Cert.ReferenceIdeal.Layer.rowOf
  refine (shapeCast_addUnit_apply (n := 1) ![128] b Cert.KernelIdeal.Facts₀.shapeCasts_S128_S1x128 i).trans ?_
  exact congrArg b (funext fun a => by match a with | ⟨0, _⟩ => rfl)

/-- The kernel's dense step over its own neighbour sums is one layer of the reference. -/
theorem layer_eq (x : (⟨Cert.KernelIdeal.S50000x128, .f32⟩ : BufTy).Contents (Elt Ideal))
    (e : (⟨Cert.KernelIdeal.S2x800000, .i32⟩ : BufTy).Contents (Elt Ideal))
    (w : (⟨Cert.KernelIdeal.S128x128, .f32⟩ : BufTy).Contents (Elt Ideal))
    (b : (⟨Cert.KernelIdeal.S128, .f32⟩ : BufTy).Contents (Elt Ideal))
    (wr : (⟨Cert.KernelIdeal.S128x128, .f32⟩ : BufTy).Contents (Elt Ideal)) :
    dense (Cert.KernelIdeal.Chain.agg x e) x w wr (Cert.KernelIdeal.Chain.row b) = Cert.ReferenceIdeal.Layer.layer x e w b wr := by
  rw [Cert.ReferenceIdeal.Layer.layer_eq, agg_eq, row_eq]

/-- The kernel program's result is the reference's two layers of the kernel program's arguments. -/
theorem result_eq (m : (ℓ : Loc Cert.KernelIdeal.nD Cert.KernelIdeal.τ Cert.KernelIdeal.sig) → Buf (Elt Ideal) ℓ) (c : Dev Cert.KernelIdeal.nD) :
    Cert.KernelIdeal.Chain.result m c
      = Cert.ReferenceIdeal.Layer.layer
          (Cert.ReferenceIdeal.Layer.layer (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  unfold Cert.KernelIdeal.Chain.result
  have h : Cert.KernelIdeal.Chain.hidden m c
      = Cert.ReferenceIdeal.Layer.layer (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
    unfold Cert.KernelIdeal.Chain.hidden
    exact layer_eq _ _ _ _ _
  rw [h]
  exact layer_eq _ _ _ _ _

end Cert.Bridge

end
-- ==== Proof.lean ====
/-
  The certificate for the two-layer graph convolution: the Pallas program against its jnp reference, over the extended
  reals.

  Each layer gathers the features along the edges' sources, sums the gathered rows into the edges' targets, and applies a
  dense step to those neighbour sums and the features: `agg · W + x · W_root + b`. The kernel program performs the gather
  and the sum on the host exactly as the reference does and the dense step in a Pallas kernel over 25 blocks of 2000 rows,
  adding the bias last; the reference adds the bias before the second product. On the extended reals the two orders agree
  with no finiteness assumption (addition is commutative and associative), the bfloat16 roundings inside the kernel are the
  identity, and a block product into a zero accumulator is the plain sum over the contracted axis.

  The three frames: the two kernel programs' are the generated frame certificates; the reference's is its generated run
  with the result dropped. The idealization rewrote nothing, so what it preserves is trivial. The value claim: the kernel
  program's run with its result array named (the launch over the generated segments), read back through the segments to
  two dense steps (the chain module), and the reference's generated run read as the same two dense steps (the
  reference-side and bridge modules).
-/
import proofs.«133569_j22428319219806_1_alg».proof.Defs
import proofs.«133569_j22428319219806_1_alg».proof.Proof.Gen.Kernel
import proofs.«133569_j22428319219806_1_alg».proof.Proof.Gen.Kernel.Skeleton
import proofs.«133569_j22428319219806_1_alg».proof.Proof.Gen.Kernel.Launch
import proofs.«133569_j22428319219806_1_alg».proof.Proof.Gen.Kernel.Points
import proofs.«133569_j22428319219806_1_alg».proof.Proof.Gen.Kernel.Frame
import proofs.«133569_j22428319219806_1_alg».proof.Proof.Gen.KernelIdeal
import proofs.«133569_j22428319219806_1_alg».proof.Proof.Gen.KernelIdeal.Skeleton
import proofs.«133569_j22428319219806_1_alg».proof.Proof.Gen.KernelIdeal.Launch
import proofs.«133569_j22428319219806_1_alg».proof.Proof.Gen.KernelIdeal.Points
import proofs.«133569_j22428319219806_1_alg».proof.Proof.Gen.KernelIdeal.Frame
import proofs.«133569_j22428319219806_1_alg».proof.Proof.Gen.ReferenceIdeal
import proofs.«133569_j22428319219806_1_alg».proof.Proof.Gen.ReferenceIdeal.Run
import proofs.«133569_j22428319219806_1_alg».proof.Proof.Gen.ReferenceIdeal.Read
import proofs.«133569_j22428319219806_1_alg».proof.Proof.Gen.Pre_finite_inputs
import proofs.«133569_j22428319219806_1_alg».proof.Proof.KRun
import proofs.«133569_j22428319219806_1_alg».proof.Proof.KValue
import proofs.«133569_j22428319219806_1_alg».proof.Proof.RefSide
import proofs.«133569_j22428319219806_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result array at two dense steps of the
    arguments: the kernel program's run read back through its segments, the reference's run read as two layers. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun _ h c => ⟨(h c).1.trans (Cert.KernelIdeal.Chain.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v39_eq, Cert.ReferenceIdeal.Layer.result_two_layers, a0, a1, a2, a3, a4, a5, a6, a7]
    exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
